-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 63
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .i1⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostChain.lean ====
/-
  The host side of the idealized kernel, read back. Between the launch and the second pallas_call the kernel's @main
  runs the same host operations as the reference: the edge list with its self loops (`row`, `col`), the degree
  normalisation `norm = dinv[row] · dinv[col]`, and, after the first pallas_call has produced `h`, the gather of `h`'s
  rows, their scaling by `norm` and the scatter-add into the target rows. Each buffer these stretches write is stated
  here as the reference program's own stage function of the arguments (its `val_main_vN`): the two programs' texts are
  the same operations on the same shapes, so each equation closes by unfolding the fold over the stretch's operations.
  Nothing here opens the aggregation: it is carried as those named functions.
-/
import proofs.«165574_j953482739902_1_alg».proof.Proof.Gen.KernelIdeal.Frame
import proofs.«165574_j953482739902_1_alg».proof.Proof.RefRead
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first pallas_call: the edge list and the normalisation -/

/-- `row`: the sources, then the self loops. -/
theorem W1_v3 (c : Dev nD) : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results
  rfl
/-- `col`: the targets, then the self loops. -/
theorem W1_v6 (c : Dev nD) : W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  after_results
  rfl
/-- `deg > 0`. -/
theorem W1_v12 (c : Dev nD) : W1 m ρ c (Proc.devRef .tc main_v12) = Cert.ReferenceIdeal.ReadP.val_main_v12 (F := F) (m ((c : Thread nD τ).loc main_arg1)) := by
  show StableHlo.after hostOps0 (W0 m ρ c) (Proc.devRef .tc main_v12) = _
  after_results
  rfl
/-- `rsqrt deg`. -/
theorem W1_v13 (c : Dev nD) : W1 m ρ c (Proc.devRef .tc main_v13) = Cert.ReferenceIdeal.ReadP.val_main_v13 (F := F) (m ((c : Thread nD τ).loc main_arg1)) := by
  show StableHlo.after hostOps0 (W0 m ρ c) (Proc.devRef .tc main_v13) = _
  after_results
  rfl
/-- The zero that `where` falls back to. -/
theorem W1_cst_2 (c : Dev nD) : W1 m ρ c (Proc.devRef .tc main_cst_2) = Cert.ReferenceIdeal.ReadP.val_main_cst_2 (F := F) := by
  show StableHlo.after hostOps0 (W0 m ρ c) (Proc.devRef .tc main_cst_2) = _
  after_results
  rfl

/-- `dinv = where (deg > 0) (rsqrt deg) 0`. -/
theorem W2_v14 (c : Dev nD) : W2 m ρ c (Proc.devRef .tc main_v14) = Cert.ReferenceIdeal.ReadP.val_main_v14 (F := F) (m ((c : Thread nD τ).loc main_arg1)) := by
  show StableHlo.after hostOps0_1 (W1 m ρ c) (Proc.devRef .tc main_v14) = _
  have h12 := W1_v12 m ρ c
  have h13 := W1_v13 m ρ c
  have h2 := W1_cst_2 m ρ c
  generalize W1 m ρ c = Wp at h12 h13 h2 ⊢
  after_results
  rw [h12, h13, h2]
  rfl
theorem W2_v3 (c : Dev nD) : W2 m ρ c (Proc.devRef .tc main_v3) = Cert.ReferenceIdeal.ReadP.val_main_v3 (F := F) (m ((c : Thread nD τ).loc main_arg1)) := by
  show StableHlo.after hostOps0_1 (W1 m ρ c) (Proc.devRef .tc main_v3) = _
  have h := W1_v3 m ρ c
  generalize W1 m ρ c = Wp at h ⊢
  after_results
  exact h
theorem W2_v6 (c : Dev nD) : W2 m ρ c (Proc.devRef .tc main_v6) = Cert.ReferenceIdeal.ReadP.val_main_v6 (F := F) (m ((c : Thread nD τ).loc main_arg1)) := by
  show StableHlo.after hostOps0_1 (W1 m ρ c) (Proc.devRef .tc main_v6) = _
  have h := W1_v6 m ρ c
  generalize W1 m ρ c = Wp at h ⊢
  after_results
  exact h

set_option maxHeartbeats 2000000 in
/-- `norm = dinv[row] · dinv[col]`. -/
theorem W3_v29 (c : Dev nD) : W3 m ρ c (Proc.devRef .tc main_v29) = Cert.ReferenceIdeal.ReadP.val_main_v29 (F := F) (m ((c : Thread nD τ).loc main_arg1)) := by
  show StableHlo.after hostOps0_2 (W2 m ρ c) (Proc.devRef .tc main_v29) = _
  have h14 := W2_v14 m ρ c
  have h3 := W2_v3 m ρ c
  have h6 := W2_v6 m ρ c
  generalize W2 m ρ c = Wp at h14 h3 h6 ⊢
  after_results_simp
  rw [h14, h3, h6]
  rfl
theorem W3_v3 (c : Dev nD) : W3 m ρ c (Proc.devRef .tc main_v3) = Cert.ReferenceIdeal.ReadP.val_main_v3 (F := F) (m ((c : Thread nD τ).loc main_arg1)) := by
  show StableHlo.after hostOps0_2 (W2 m ρ c) (Proc.devRef .tc main_v3) = _
  have h := W2_v3 m ρ c
  generalize W2 m ρ c = Wp at h ⊢
  after_results
  exact h
theorem W3_v6 (c : Dev nD) : W3 m ρ c (Proc.devRef .tc main_v6) = Cert.ReferenceIdeal.ReadP.val_main_v6 (F := F) (m ((c : Thread nD τ).loc main_arg1)) := by
  show StableHlo.after hostOps0_2 (W2 m ρ c) (Proc.devRef .tc main_v6) = _
  have h := W2_v6 m ρ c
  generalize W2 m ρ c = Wp at h ⊢
  after_results
  exact h

/-- No host operation before the first pallas_call writes an argument. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

/-! ## Between the two pallas_calls: gather, scale, scatter-add; the bias as a row -/

/-- The first pallas_call writes only its result: the edge list, the normalisation and the bias pass through it. -/
theorem W4_v3 (c : Dev nD) : W4 m ρ c (Proc.devRef .tc main_v3) = Cert.ReferenceIdeal.ReadP.val_main_v3 (F := F) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.ReadP.val_main_v6 (F := F) (m ((c : Thread nD τ).loc main_arg1)) :=
  (W4_of_ne m ρ c main_v6 (by decide)).trans (W3_v6 m ρ c)
theorem W4_v29 (c : Dev nD) : W4 m ρ c (Proc.devRef .tc main_v29) = Cert.ReferenceIdeal.ReadP.val_main_v29 (F := F) (m ((c : Thread nD τ).loc main_arg1)) :=
  (W4_of_ne m ρ c main_v29 (by decide)).trans (W3_v29 m ρ c)
theorem W4_arg3 (c : Dev nD) : W4 m ρ c (Proc.devRef .tc main_arg3) = m ((c : Thread nD τ).loc main_arg3) :=
  (W4_of_ne m ρ c main_arg3 (by decide)).trans (W3_arg3 m ρ c)

set_option maxHeartbeats 2000000 in
/-- The aggregate `segment_sum (h[row] · norm) col`, for whatever `h` the first pallas_call left, provided that `h` is the
    reference's product stage of the arguments (`h30`). -/
theorem W5_v43_of (c : Dev nD)
    (h30 : W4 m ρ c (Proc.devRef .tc main_v30) = Cert.ReferenceIdeal.ReadP.val_main_v30 (F := F) (m ((c : Thread nD τ).loc main_arg0)) (m ((c : Thread nD τ).loc main_arg2))) :
    W5 m ρ c (Proc.devRef .tc main_v43) = Cert.ReferenceIdeal.ReadP.val_main_v43 (F := F) (m ((c : Thread nD τ).loc main_arg0)) (m ((c : Thread nD τ).loc main_arg1)) (m ((c : Thread nD τ).loc main_arg2)) := by
  show StableHlo.after hostOps1 (W4 m ρ c) (Proc.devRef .tc main_v43) = _
  have h3 := W4_v3 m ρ c
  have h6 := W4_v6 m ρ c
  have h29 := W4_v29 m ρ c
  generalize W4 m ρ c = Wp at h30 h3 h6 h29 ⊢
  after_results_simp
  rw [h30, h3, h6, h29]
  rfl

/-- The bias as a `1 × 128` row. -/
theorem W5_v44 (c : Dev nD) :
    W5 m ρ c (Proc.devRef .tc main_v44) = shapeCast S1x128 (m ((c : Thread nD τ).loc main_arg3)) shapeCasts_S128_S1x128 := by
  show StableHlo.after hostOps1 (W4 m ρ c) (Proc.devRef .tc main_v44) = _
  have h := W4_arg3 m ρ c
  generalize W4 m ρ c = Wp at h ⊢
  after_results_simp
  rw [h]
  rfl

end Cert.KernelIdeal.HostChain

end
-- ==== Proof.MatmulBlocks.lean ====
/-
  Region 0 of the idealized kernel, read as ONE array. The first pallas_call multiplies the node features by the weight
  matrix block by block: grid point `t` loads rows `5000·t … 5000·t + 4999` of `x` (all 128 columns) and the whole of
  `W`, and stores their matrix product (into a zero accumulator; the two casts to bf16 are the identity on the extended
  reals) as rows `5000·t …` of the result. The twenty row blocks tile the `100000 × 128` result, so the array the region
  leaves is `(x · W) i j = ∑ k, x i k * W k j`, whatever the buffers held when the region was entered (`V`).
-/
import proofs.«165574_j953482739902_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat)

/-- Row `i 0`, column `k` of the features. -/
abbrev lrow (i : S100000x128.Idx) (k : Fin 128) : S100000x128.Idx := fun a => match a with
  | ⟨0, _⟩ => ⟨(i 0).val, (i 0).isLt⟩
  | ⟨1, _⟩ => ⟨k.val, k.isLt⟩
/-- Row `k`, column `i 1` of the weights. -/
abbrev rcol (i : S100000x128.Idx) (k : Fin 128) : S128x128.Idx := fun a => match a with
  | ⟨0, _⟩ => ⟨k.val, k.isLt⟩
  | ⟨1, _⟩ => ⟨(i 1).val, (i 1).isLt⟩

/-- The matrix product `x · W` over the extended reals, entry by entry. -/
def xw (x : FVec Ideal S100000x128 .f32) (w : FVec Ideal S128x128 .f32) : FVec Ideal S100000x128 .f32 :=
  fun i => ∑ k : Fin 128, x (lrow i k) * w (rcol i k)

/-- The same two index maps inside one block of 5000 rows. -/
abbrev brow (j : S5000x128.Idx) (k : Fin 128) : S5000x128.Idx := fun a => match a with
  | ⟨0, _⟩ => ⟨(j 0).val, (j 0).isLt⟩
  | ⟨1, _⟩ => ⟨k.val, k.isLt⟩
abbrev bcol (j : S5000x128.Idx) (k : Fin 128) : S128x128.Idx := fun a => match a with
  | ⟨0, _⟩ => ⟨k.val, k.isLt⟩
  | ⟨1, _⟩ => ⟨(j 1).val, (j 1).isLt⟩

theorem hz : (![0, 0] : Fin 2 → Nat) = fun _ => 0 := funext fun a => by fin_cases a <;> rfl

/-! ## The block product at an entry -/

theorem lhs_blk_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_blk_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_blk_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What one grid point stores, at an entry of its block: the sum over the 128 shared columns. -/
theorem pay_apply (xb : Vec Ideal S5000x128 .f32) (wb : Vec Ideal S128x128 .f32) (j : S5000x128.Idx) :
    k0_pay1 (F := Ideal) xb wb j = ∑ k : Fin 128, xb (brow j k) * wb (bcol j k) := by
  unfold k0_pay1
  show FloatOps.matmul dot_S5000x128_S128x128_S5000x128_1_0_0_1_n_n none (truncf (F := Ideal) .bf16 xb bitsLt_bf16_f32) (truncf (F := Ideal) .bf16 wb bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_blk_0 _ _).trans hk
    | ⟨1, _⟩ => exact rhs_blk_1 _ _)
  rw [el, er]
  rfl

/-! ## The schedule: which rows a point's blocks are -/

/-- Decided over the twenty points: the feature block and the result block of point `t` are row block `t`, all columns; the
    weight block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of `x · W` of the arrays the region finds. -/
theorem flushed_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = xw (V c main_arg0) (V c main_arg2) (((cfg0.win 2).blk t).view.emb j)
  refine (pay_apply (iblk0 V c 0 t) (iblk0 V c 1 t) j).trans ?_
  unfold xw
  refine Finset.sum_congr rfl fun k _ => ?_
  have h0 : iblk0 V c 0 t (brow j k) = V c main_arg0 (lrow (((cfg0.win 2).blk t).view.emb j) k) := by
    unfold iblk0
    rw [View.read_apply]
    show V c main_arg0 (((cfg0.win 0).blk t).view.emb (brow j k)) = _
    refine congrArg (V c main_arg0 : S100000x128.Idx → EReal) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (bcol j k) = V c main_arg2 (rcol (((cfg0.win 2).blk t).view.emb j) k) := by
    unfold iblk0
    rw [View.read_apply]
    show V c main_arg2 (((cfg0.win 1).blk t).view.emb (bcol j k)) = _
    refine congrArg (V c main_arg2 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result lies in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY region 0 leaves: `x · W` of the feature and weight arrays it found. -/
theorem final (c : Dev nD) : (dat0 V c).arrAt 2 cfg0.N = xw (V c main_arg0) (V c main_arg2) :=
  (dat0 V c).arrAt_eq_of_cover 2 (xw (V c main_arg0) (V c main_arg2)) (fun t _ => flushed_eq V c t) cover

end

end Cert.KernelIdeal.Linear

end
-- ==== Proof.LibSoftplusMish.lean ====
/-
  Mish at one extended real, and the two spellings of it that the two programs print.
  `softplus u = log (1 + e^u)` is computed by both programs in the guarded log-add-exp form
  `max u 0 + log1p (exp (-|u - 0|))`, behind a test `u - 0 ≠ u - 0` that no extended real passes (it asks for a NaN), and
  `mish u = u · tanh (softplus u)`. The kernel writes the negation as `0 - |d|` and tests with the ordered predicate, the
  host program negates and tests with the unordered one: on the extended reals these are the same function.
-/
import Idealize.ShloMosaic.PureOps.Ideal
import Idealize.ShloMosaic.PureOps.Ideal.Laws

noncomputable section

namespace Cert.Spec

open Idealize.ShloMosaic

/-- `log (1 + e^u)` in the form both programs compute: `max u 0 + log1p (exp (-|u|))`. -/
def softplusPt (u : EReal) : EReal := max u 0 + Ideal.log1p (Ideal.exp (-(max u (-u))))

/-- `u · tanh (softplus u)`. -/
def mishPt (u : EReal) : EReal := u * Ideal.tanh (softplusPt u)

/-- No extended real differs from itself, under either reading of "not equal". -/
theorem cmp_one_self (d : EReal) : Ideal.cmp .one d d = 0#1 := by
  simp [Ideal.cmp]
theorem cmp_une_self (d : EReal) : Ideal.cmp .une d d = 0#1 := by
  simp [Ideal.cmp]

theorem select_zero {α : Type} (a b : α) : Scalar.select 0#1 a b = b := by
  simp [Scalar.select]

/-- The kernel's spelling: the guard by the ordered predicate, the negation as `0 - |d|`. -/
theorem mish_kernel_form (v : EReal) :
    v * Ideal.tanh (Scalar.select (Ideal.cmp .one (v - 0) (v - 0)) (v + 0)
      (max v 0 + Ideal.log1p (Ideal.exp (0 - max (v - 0) (-(v - 0)))))) = mishPt v := by
  rw [cmp_one_self, select_zero, sub_zero, zero_sub]
  rfl

/-- The host program's spelling: the guard by the unordered predicate, the negation as such. -/
theorem mish_host_form (u : EReal) :
    u * Ideal.tanh (Scalar.select (Ideal.cmp .une (u - 0) (u - 0)) (u + 0)
      (max u 0 + Ideal.log1p (Ideal.exp (-(max (u - 0) (-(u - 0))))))) = mishPt u := by
  rw [cmp_une_self, select_zero, sub_zero]
  rfl

end Cert.Spec

end
-- ==== Proof.MishBlocks.lean ====
/-
  Region 1 of the idealized kernel, read as ONE array. The second pallas_call adds the bias row to the aggregated
  features and applies Mish, block by block: grid point `t` loads rows `5000·t … 5000·t + 4999` of the aggregate and the
  `1 × 128` bias row, and stores `mish (a i j + b 0 j)` as rows `5000·t …` of the result. The twenty row blocks tile the
  `100000 × 128` result, so the array the region leaves is that function of the two arrays it found, entry by entry.
-/
import proofs.«165574_j953482739902_1_alg».proof.Proof.Gen.KernelIdeal.Frame
import proofs.«165574_j953482739902_1_alg».proof.Proof.LibSoftplusMish
import Idealize.ShloMosaic.Lib.Pipeline.Value
import Idealize.ShloMosaic.Lib.ValueIdx
import Idealize.ShloMosaic.PureOps.Ideal.Laws

set_option maxRecDepth 16384

noncomputable section

namespace Cert.KernelIdeal.Activation

open Cert.KernelIdeal Cert.KernelIdeal.Gen
open Idealize.ShloMosaic Idealize.ShloMosaic.TcCoe Idealize.SL.Sem
open Idealize.ShloMosaic.Pipeline (Dat)

/-- The bias row's entry under column `i 1`. -/
abbrev under (i : S100000x128.Idx) : S1x128.Idx := fun a => match a with
  | ⟨0, _⟩ => ⟨0, Nat.one_pos⟩
  | ⟨1, _⟩ => ⟨(i 1).val, (i 1).isLt⟩
/-- The same inside one block of 5000 rows. -/
abbrev bunder (j : S5000x128.Idx) : S1x128.Idx := fun a => match a with
  | ⟨0, _⟩ => ⟨0, Nat.one_pos⟩
  | ⟨1, _⟩ => ⟨(j 1).val, (j 1).isLt⟩

/-- Bias, then Mish, entry by entry. -/
def act (a : FVec Ideal S100000x128 .f32) (b2 : FVec Ideal S1x128 .f32) : FVec Ideal S100000x128 .f32 :=
  fun i => Cert.Spec.mishPt (a i + b2 (under i))

theorem hz : (![0, 0] : Fin 2 → Nat) = fun _ => 0 := funext fun a => by fin_cases a <;> rfl

/-- The bias row broadcast down the block's rows, at an entry. -/
theorem bias_apply (bb : Vec Ideal S1x128 .f32) (j : S5000x128.Idx) :
    broadcastTo S5000x128 (shapeCast S1x128 bb shapeCasts_S1x128_S1x128) broadcasts_S1x128_S5000x128 j = bb (bunder j) := by
  rw [shapeCast_self]
  exact broadcastTo_apply bb broadcasts_S1x128_S5000x128 j (bunder j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

/-- What one grid point stores, at an entry of its block. -/
theorem pay_apply (xb : Vec Ideal S5000x128 .f32) (bb : Vec Ideal S1x128 .f32) (j : S5000x128.Idx) :
    k1_pay1 (F := Ideal) xb bb j = Cert.Spec.mishPt (xb j + bb (bunder j)) := by
  unfold k1_pay1
  simp only [mulf, tanh, select, cmpf, addf, subf, maximumf, absf, exp, log1p, broadcast]
  rw [bias_apply, shapeCast_self]
  simp only [Ideal.mulf_def, Ideal.addf_def, Ideal.subf_def, Ideal.maximumf_def, Ideal.tanh_def, Ideal.exp_def, Ideal.log1p_def,
    Ideal.cmpf_def, Ideal.absf_def, Ideal.ofBits_def, Ideal.ofBits_zero_f32]
  exact Cert.Spec.mish_kernel_form _

/-! ## The schedule: which rows a point's blocks are -/

/-- Decided over the twenty points: the aggregate's block and the result's block of point `t` are row block `t`, all
    columns; the bias block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of `act` of the arrays the region finds. -/
theorem flushed_eq (c : Dev nD) (t : Fin cfg1.N) :
    (dat1 V c).flushed 2 t = ((cfg1.win 2).blk t).view.read (Elt Ideal) (act (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (F := Ideal) (iblk1 V c 0 t) (iblk1 V c 1 t) j = act (V c main_v43) (V c main_v44) (((cfg1.win 2).blk t).view.emb j)
  refine (pay_apply (iblk1 V c 0 t) (iblk1 V c 1 t) j).trans ?_
  unfold act
  have h0 : iblk1 V c 0 t j = V c main_v43 (((cfg1.win 2).blk t).view.emb j) := by
    unfold iblk1
    rw [View.read_apply]
    show V c main_v43 (((cfg1.win 0).blk t).view.emb j) = _
    refine congrArg (V c main_v43 : S100000x128.Idx → EReal) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : iblk1 V c 1 t (bunder j) = V c main_v44 (under (((cfg1.win 2).blk t).view.emb j)) := by
    unfold iblk1
    rw [View.read_apply]
    show V c main_v44 (((cfg1.win 1).blk t).view.emb (bunder j)) = _
    refine congrArg (V c main_v44 : S1x128.Idx → EReal) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the result is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row `r` of the result lies in the block of point `r / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY region 1 leaves: bias then Mish of the aggregate and the bias row it found. -/
theorem final (c : Dev nD) : (dat1 V c).arrAt 2 cfg1.N = act (V c main_v43) (V c main_v44) :=
  (dat1 V c).arrAt_eq_of_cover 2 (act (V c main_v43) (V c main_v44)) (fun t _ => flushed_eq V c t) cover

end

end Cert.KernelIdeal.Activation

end
-- ==== Proof.RefMish.lean ====
/-
  The reference's last operations at an entry. After the aggregation the reference adds the bias (broadcast along the
  rows) and applies Mish through jax's softplus: entry `(r, c)` of its result is `mish (agg r c + b c)`, with `mish` the
  one function of LibSoftplusMish.lean (the host program's spelling of it).
-/
import proofs.«165574_j953482739902_1_alg».proof.Proof.RefRead
import proofs.«165574_j953482739902_1_alg».proof.Proof.LibSoftplusMish

noncomputable section

namespace Cert.ReferenceIdeal.Tail

open Cert.ReferenceIdeal Cert.ReferenceIdeal.ReadP
open Idealize.ShloMosaic

/-- The bias entry under column `i 1`. -/
abbrev col (i : S100000x128.Idx) : S128.Idx := fun a => match a with
  | ⟨0, _⟩ => ⟨(i 1).val, (i 1).isLt⟩

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-- The two broadcasts of the bias read it at the entry's column. -/
theorem idx_eq (i : S100000x128.Idx) : idx_main_v44 (idx_main_v45 i) = col i :=
  funext fun a => by match a with | ⟨0, _⟩ => rfl

/-- The pre-activation: the aggregate plus the bias of the entry's column. -/
theorem pre_apply (i : S100000x128.Idx) :
    val_main_v46 (F := Ideal) x0 x1 x2 x3 i = val_main_v43 (F := Ideal) x0 x1 x2 i + x3 (col i) := by
  rw [val_main_v46_apply, val_main_v45_apply, val_main_v44_apply, idx_eq, Ideal.addf_def]

/-- The result: Mish of the pre-activation. -/
theorem result_apply (i : S100000x128.Idx) :
    val_main_v49 (F := Ideal) x0 x1 x2 x3 i = Cert.Spec.mishPt (val_main_v46 (F := Ideal) x0 x1 x2 x3 i) := by
  rw [val_main_v49_apply, val_main_v48_apply, val_main_v47_apply, val_main_call1_v4_apply, val_main_call1_v6_apply,
    val_main_call1_v11_apply, val_main_call1_v1_apply, val_main_call1_v10_apply, val_main_call1_v9_apply, val_main_call1_v8_apply,
    val_main_call1_v7_apply, val_main_call1_v3_apply, val_main_call1_v0_apply, val_main_call1_v2_apply, val_main_call1_v5_apply,
    val_main_call1_cst_apply]
  generalize val_main_v46 (F := Ideal) x0 x1 x2 x3 i = u
  simp only [Ideal.mulf_def, Ideal.addf_def, Ideal.subf_def, Ideal.maximumf_def, Ideal.hostUnary_tanh_def, Ideal.hostUnary_exp_def,
    Ideal.hostUnary_log1p_def, Ideal.hostNegf_def, Ideal.hostAbsf_def, Ideal.negf_def, Ideal.cmpf_def, Ideal.absf_def, Ideal.ofBits_def,
    Ideal.ofBits_zero_f32]
  exact Cert.Spec.mish_host_form u

end Cert.ReferenceIdeal.Tail

end
-- ==== Proof.Bridge.lean ====
/-
  The idealized kernel's result IS the reference's. Read through the run's fold, the kernel's result buffer ends at
  `mish (agg (x · W) + b)`: the first pallas_call leaves `x · W` (the matrix product the reference computes by one
  `dot_general`: the same sum over the 128 shared columns), the host stretch between the calls is the reference's own
  aggregation of it, and the second pallas_call is the reference's bias, softplus, tanh and product, entry by entry.
-/
import proofs.«165574_j953482739902_1_alg».proof.Proof.HostChain
import proofs.«165574_j953482739902_1_alg».proof.Proof.MatmulBlocks
import proofs.«165574_j953482739902_1_alg».proof.Proof.MishBlocks
import proofs.«165574_j953482739902_1_alg».proof.Proof.KernelRun
import proofs.«165574_j953482739902_1_alg».proof.Proof.RefMish

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- `x · W` entry by entry is the host's `dot_general` of the two arrays. -/
theorem xw_eq (x : FVec Ideal S100000x128 .f32) (w : FVec Ideal S128x128 .f32) :
    Linear.xw x w = Cert.ReferenceIdeal.ReadP.val_main_v30 (F := Ideal) x w := by
  funext i
  rw [Cert.ReferenceIdeal.ReadP.val_main_v30_apply]
  unfold Linear.xw
  refine Finset.sum_congr rfl fun k _ => ?_
  have el : Linear.lrow i k = Cert.ReferenceIdeal.ReadP.lidx_main_v30 i k := funext fun a => by match a with | ⟨0, _⟩ => rfl | ⟨1, _⟩ => rfl
  have er : Linear.rcol i k = Cert.ReferenceIdeal.ReadP.ridx_main_v30 i k := funext fun a => by match a with | ⟨0, _⟩ => rfl | ⟨1, _⟩ => rfl
  rw [el, er]

/-- What the first pallas_call leaves in its result buffer: the product of the two arguments. -/
theorem W4_v30 (c : Dev nD) :
    W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ?_
  rw [Linear.final (V3 m ρ) c, xw_eq]
  show Cert.ReferenceIdeal.ReadP.val_main_v30 (F := Ideal) (W3 m ρ c (Proc.devRef .tc main_arg0)) (W3 m ρ c (Proc.devRef .tc main_arg2)) = _
  rw [HostChain.W3_arg0, HostChain.W3_arg2]

/-- The bias row under an entry is the bias at the entry's column. -/
theorem bias_row (b : FVec Ideal S128 .f32) (i : S100000x128.Idx) :
    shapeCast S1x128 b shapeCasts_S128_S1x128 (Activation.under i) = b (Cert.ReferenceIdeal.Tail.col i) :=
  (shapeCast_addUnit_apply (n := 1) ![128] b shapeCasts_S128_S1x128 (Activation.under i)).trans
    (congrArg b (funext fun a => by match a with | ⟨0, _⟩ => rfl))

/-- THE KERNEL'S RESULT: the buffer the second pallas_call leaves is the reference's last stage of the arguments. -/
theorem W6_v45 (c : Dev nD) :
    W6 m ρ c (Proc.devRef .tc main_v45) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Activation.final (V5 m ρ) c]
  show Activation.act (W5 m ρ c (Proc.devRef .tc main_v43)) (W5 m ρ c (Proc.devRef .tc main_v44)) = _
  rw [HostChain.W5_v43_of m ρ c (W4_v30 m ρ c), HostChain.W5_v44]
  funext i
  rw [Cert.ReferenceIdeal.Tail.result_apply, Cert.ReferenceIdeal.Tail.pre_apply]
  unfold Activation.act
  rw [bias_row]

end Cert.KernelIdeal.Result

end
-- ==== Proof.lean ====
/-
  The certificate of a graph-convolution layer with Mish: `mish (agg (x · W) + b)`, where `agg` gathers the rows of
  `h = x · W` along the edges (with self loops), scales them by the symmetric degree normalisation and scatter-adds them
  into their target rows. The kernel computes `h` by a pallas_call over twenty row blocks (bf16 operands into an f32
  accumulator), aggregates on the host exactly as the reference does, and applies the bias and Mish by a second
  pallas_call over the same row blocks; the reference computes `h` by one `dot_general` and the rest on the host.
  Over the extended reals the two are one function: the casts are the identity, a block of the matrix product is the
  same sum over the 128 shared columns, the aggregation is the same operations applied to equal arrays, and the two
  spellings of Mish agree at every extended real (the NaN guard of log-add-exp never fires; `0 - |d| = -|d|`).
  The three frames are the generated ones (the reference's is its run with the result dropped); the ideal pass rewrote
  nothing, so `preserves` is trivial; `algebraic` pairs the kernel's run, its result named and read back through
  the two regions and the host stretches (Bridge.lean), with the reference's run.
-/
import proofs.«165574_j953482739902_1_alg».proof.Defs
import proofs.«165574_j953482739902_1_alg».proof.Proof.Gen.Kernel
import proofs.«165574_j953482739902_1_alg».proof.Proof.Gen.Kernel.Skeleton
import proofs.«165574_j953482739902_1_alg».proof.Proof.Gen.Kernel.Launch
import proofs.«165574_j953482739902_1_alg».proof.Proof.Gen.Kernel.Points
import proofs.«165574_j953482739902_1_alg».proof.Proof.Gen.Kernel.Frame
import proofs.«165574_j953482739902_1_alg».proof.Proof.Gen.KernelIdeal
import proofs.«165574_j953482739902_1_alg».proof.Proof.Gen.KernelIdeal.Skeleton
import proofs.«165574_j953482739902_1_alg».proof.Proof.Gen.KernelIdeal.Launch
import proofs.«165574_j953482739902_1_alg».proof.Proof.Gen.KernelIdeal.Points
import proofs.«165574_j953482739902_1_alg».proof.Proof.Gen.KernelIdeal.Frame
import proofs.«165574_j953482739902_1_alg».proof.Proof.Gen.ReferenceIdeal
import proofs.«165574_j953482739902_1_alg».proof.Proof.Gen.Pre_finite_inputs
import proofs.«165574_j953482739902_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v49 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.W6_v45 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v49_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
